-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S1048576 : Shape := ⟨1, ![1048576]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel

variable [Facts]

def fn {F : FTy → Type} [FloatOps F] (main_arg0 : FVec F S4096x4096 .f32) (main_arg1 : FVec F S4096x4096 .f32) (main_arg2 : IVec S1048576 32) (main_arg3 : IVec S1048576 32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  main_v8
-- ==== Kernel.lean ====
abbrev S4096x4096 : Shape := ⟨2, ![4096, 4096]⟩
abbrev S1048576 : Shape := ⟨1, ![1048576]⟩
abbrev S256x4096 : Shape := ⟨2, ![256, 4096]⟩
abbrev S256x256 : Shape := ⟨2, ![256, 256]⟩
abbrev S_ : Shape := ⟨0, ![]⟩
abbrev S1048576x1 : Shape := ⟨2, ![1048576, 1]⟩
abbrev S1048576x2 : Shape := ⟨2, ![1048576, 2]⟩

abbrev nBuf : Space → Nat
  | .hbm => 23
  | .vmem => 10
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S1048576, .i32⟩
  | .hbm, ⟨3, _⟩ => ⟨S1048576, .i32⟩
  | .hbm, ⟨4, _⟩ => ⟨S4096x4096, .f32⟩
  | .hbm, ⟨5, _⟩ => ⟨S_, .i32⟩
  | .hbm, ⟨6, _⟩ => ⟨S1048576, .i32⟩
  | .hbm, ⟨7, _⟩ => ⟨S1048576, .i1⟩
  | .hbm, ⟨8, _⟩ => ⟨S_, .i32⟩
  | .hbm, ⟨9, _⟩ => ⟨S1048576, .i32⟩
  | .hbm, ⟨10, _⟩ => ⟨S1048576, .i32⟩
  | .hbm, ⟨11, _⟩ => ⟨S1048576, .i32⟩
  | .hbm, ⟨12, _⟩ => ⟨S_, .i32⟩
  | .hbm, ⟨13, _⟩ => ⟨S1048576, .i32⟩
  | .hbm, ⟨14, _⟩ => ⟨S1048576, .i1⟩
  | .hbm, ⟨15, _⟩ => ⟨S_, .i32⟩
  | .hbm, ⟨16, _⟩ => ⟨S1048576, .i32⟩
  | .hbm, ⟨17, _⟩ => ⟨S1048576, .i32⟩
  | .hbm, ⟨18, _⟩ => ⟨S1048576, .i32⟩
  | .hbm, ⟨19, _⟩ => ⟨S1048576x1, .i32⟩
  | .hbm, ⟨20, _⟩ => ⟨S1048576x1, .i32⟩
  | .hbm, ⟨21, _⟩ => ⟨S1048576x2, .i32⟩
  | .hbm, ⟨22, _⟩ => ⟨S1048576, .f32⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S256x4096, .f32⟩
  | .local _ .vmem, ⟨5, _⟩ => ⟨S256x4096, .f32⟩
  | .local _ .vmem, ⟨6, _⟩ => ⟨S256x4096, .f32⟩
  | .local _ .vmem, ⟨7, _⟩ => ⟨S256x4096, .f32⟩
  | .local _ .vmem, ⟨8, _⟩ => ⟨S256x256, .f32⟩
  | .local _ .vmem, ⟨9, _⟩ => ⟨S256x256, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c_1 : Ref sig .tc := ⟨.hbm, 12, rfl⟩
abbrev main_v6 : Ref sig .tc := ⟨.hbm, 13, rfl⟩
abbrev main_v7 : Ref sig .tc := ⟨.hbm, 14, rfl⟩
abbrev main_c_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  inb_S256x4096_S256x4096_0_0 : ∀ a, (![0, 0] : Fin 2 → Nat) a + S256x4096.size a ≤ S256x4096.size a
  h_S256x4096 : 0 < S256x4096.numel
  inb_S256x256_S256x256_0_0 : ∀ a, (![0, 0] : Fin 2 → Nat) a + S256x256.size a ≤ S256x256.size a
  h_S256x256 : 0 < S256x256.numel
  bcast_S_S1048576 : S_.BroadcastsInDim S1048576 (![] : Fin 0 → Fin S1048576.rank)
  bcast_S1048576_S1048576x1_0 : S1048576.BroadcastsInDim S1048576x1 (![0] : Fin 1 → Fin S1048576x1.rank)
  concatenates_S1048576x1_S1048576x1_S1048576x2_d1 : Shape.Concatenates [S1048576x1, S1048576x1] S1048576x2 1
  dot_S256x4096_S256x4096_S256x256_1_1_0_0_n_n_wf : DotDims.WF S256x4096 S256x4096 S256x256 [1] [1] [0] [0] [] []
  gather_S4096x4096_S1048576x2_S1048576_n_01_n_n_01_1_11_wf : GatherDims.WF S4096x4096 S1048576x2 S1048576 [] [0, 1] [] [0, 1] [] 1 ![1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S4096x4096.size a
  hwx0_0 : ∀ i : grid0.Coords, EltTy.bits .f32 = 32 ∨ (Rect.block (s := S4096x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S4096x4096.size a
  hwx0_1 : ∀ i : grid0.Coords, EltTy.bits .f32 = 32 ∨ (Rect.block (s := S4096x4096) S256x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x4096.size a ≤ S4096x4096.size a
  hwx0_2 : ∀ i : grid0.Coords, EltTy.bits .f32 = 32 ∨ (Rect.block (s := S4096x4096) S256x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x4096.size a ≤ S4096x4096.size a
  hwx0_3 : ∀ i : grid0.Coords, EltTy.bits .f32 = 32 ∨ (Rect.block (s := S4096x4096) S256x4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S4096x4096.size a
  hwx0_4 : ∀ i : grid0.Coords, EltTy.bits .f32 = 32 ∨ (Rect.block (s := S4096x4096) S256x256.size (cc0_transform_4 i) (hinb0_4 i)).WholeWords (EltTy.packing .f32)

variable [Facts₀]

def dot_S256x4096_S256x4096_S256x256_1_1_0_0_n_n : DotDims S256x4096 S256x4096 S256x256 where
  lhsContracting := [1]
  rhsContracting := [1]
  lhsNonContracting := [0]
  rhsNonContracting := [0]
  lhsBatch := []
  rhsBatch := []
  wf := dot_S256x4096_S256x4096_S256x256_1_1_0_0_n_n_wf
def gather_S4096x4096_S1048576x2_S1048576_n_01_n_n_01_1_11 : GatherDims S4096x4096 S1048576x2 S1048576 where
  offsetDims := []
  collapsedSliceDims := [0, 1]
  operandBatchingDims := []
  startIndicesBatchingDims := []
  startIndexMap := [0, 1]
  indexVectorDim := 1
  sliceSizes := ![1, 1]
  wf := gather_S4096x4096_S1048576x2_S1048576_n_01_n_n_01_1_11_wf

abbrev win0_0 : Pipeline.Window sig grid0 :=
  Pipeline.Window.ofSpec (Memref.whole main_arg0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S256x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S256x4096.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S256x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4096x4096 : Shape := ⟨2, ![4096, 4096]⟩
abbrev S1048576 : Shape := ⟨1, ![1048576]⟩
abbrev S_ : Shape := ⟨0, ![]⟩
abbrev S1048576x1 : Shape := ⟨2, ![1048576, 1]⟩
abbrev S1048576x2 : Shape := ⟨2, ![1048576, 2]⟩

abbrev nBuf : Space → Nat
  | .hbm => 27
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S1048576, .i32⟩
  | .hbm, ⟨3, _⟩ => ⟨S1048576, .i32⟩
  | .hbm, ⟨4, _⟩ => ⟨S4096x4096, .f32⟩
  | .hbm, ⟨5, _⟩ => ⟨S4096x4096, .f32⟩
  | .hbm, ⟨6, _⟩ => ⟨S4096x4096, .f32⟩
  | .hbm, ⟨7, _⟩ => ⟨S4096x4096, .f32⟩
  | .hbm, ⟨8, _⟩ => ⟨S4096x4096, .f32⟩
  | .hbm, ⟨9, _⟩ => ⟨S_, .i32⟩
  | .hbm, ⟨10, _⟩ => ⟨S1048576, .i32⟩
  | .hbm, ⟨11, _⟩ => ⟨S1048576, .i1⟩
  | .hbm, ⟨12, _⟩ => ⟨S_, .i32⟩
  | .hbm, ⟨13, _⟩ => ⟨S1048576, .i32⟩
  | .hbm, ⟨14, _⟩ => ⟨S1048576, .i32⟩
  | .hbm, ⟨15, _⟩ => ⟨S1048576, .i32⟩
  | .hbm, ⟨16, _⟩ => ⟨S_, .i32⟩
  | .hbm, ⟨17, _⟩ => ⟨S1048576, .i32⟩
  | .hbm, ⟨18, _⟩ => ⟨S1048576, .i1⟩
  | .hbm, ⟨19, _⟩ => ⟨S_, .i32⟩
  | .hbm, ⟨20, _⟩ => ⟨S1048576, .i32⟩
  | .hbm, ⟨21, _⟩ => ⟨S1048576, .i32⟩
  | .hbm, ⟨22, _⟩ => ⟨S1048576, .i32⟩
  | .hbm, ⟨23, _⟩ => ⟨S1048576x1, .i32⟩
  | .hbm, ⟨24, _⟩ => ⟨S1048576x1, .i32⟩
  | .hbm, ⟨25, _⟩ => ⟨S1048576x2, .i32⟩
  | .hbm, ⟨26, _⟩ => ⟨S1048576, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_v5 : Ref sig .tc := ⟨.hbm, 10, rfl⟩
abbrev main_v6 : Ref sig .tc := ⟨.hbm, 11, rfl⟩
abbrev main_c_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c_1 : Ref sig .tc := ⟨.hbm, 16, rfl⟩
abbrev main_v10 : Ref sig .tc := ⟨.hbm, 17, rfl⟩
abbrev main_v11 : Ref sig .tc := ⟨.hbm, 18, rfl⟩
abbrev main_c_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]

class Facts₀ : Prop where
  transposes_S4096x4096_S4096x4096_1_0 : S4096x4096.Transposes [1, 0] S4096x4096
  bcast_S_S1048576 : S_.BroadcastsInDim S1048576 (![] : Fin 0 → Fin S1048576.rank)
  bcast_S1048576_S1048576x1_0 : S1048576.BroadcastsInDim S1048576x1 (![0] : Fin 1 → Fin S1048576x1.rank)
  concatenates_S1048576x1_S1048576x1_S1048576x2_d1 : Shape.Concatenates [S1048576x1, S1048576x1] S1048576x2 1
  dot_S4096x4096_S4096x4096_S4096x4096_1_0_0_1_n_n_wf : DotDims.WF S4096x4096 S4096x4096 S4096x4096 [1] [0] [0] [1] [] []
  gather_S4096x4096_S1048576x2_S1048576_n_01_n_n_01_1_11_wf : GatherDims.WF S4096x4096 S1048576x2 S1048576 [] [0, 1] [] [0, 1] [] 1 ![1, 1]

variable [Facts₀]

def dot_S4096x4096_S4096x4096_S4096x4096_1_0_0_1_n_n : DotDims S4096x4096 S4096x4096 S4096x4096 where
  lhsContracting := [1]
  rhsContracting := [0]
  lhsNonContracting := [0]
  rhsNonContracting := [1]
  lhsBatch := []
  rhsBatch := []
  wf := dot_S4096x4096_S4096x4096_S4096x4096_1_0_0_1_n_n_wf
def gather_S4096x4096_S1048576x2_S1048576_n_01_n_n_01_1_11 : GatherDims S4096x4096 S1048576x2 S1048576 where
  offsetDims := []
  collapsedSliceDims := [0, 1]
  operandBatchingDims := []
  startIndicesBatchingDims := []
  startIndexMap := [0, 1]
  indexVectorDim := 1
  sliceSizes := ![1, 1]
  wf := gather_S4096x4096_S1048576x2_S1048576_n_01_n_n_01_1_11_wf

class Facts : Prop extends Facts₀ where

variable [Facts]
-- ==== Proof.Kernel.Body.lean ====
/-
  The matmul kernel's body at one grid point, and the pipeline's proof data.

  The pallas_call has five windows on a 16 × 16 grid: windows 0 and 1 are both on the first argument U
  (row block i and row block j, each 256 × 4096), windows 2 and 3 both on the second argument V (the same
  two row blocks), window 4 is the result's 256 × 256 block (i, j). At a point the body loads the four
  input blocks, forms  u_i · u_jᵀ − v_i · v_jᵀ  (two products contracting the long axis, into a zero
  accumulator, then a difference) and stores it over the whole output block.

  Proof data: the arrays as launched; after the body an input's staging buffer still holds its block and
  the output's holds the body's one store read back; the invariant is the scoped rest and the generator
  register, untouched. Because U (and V) is read through TWO windows, neither window can hold the array
  outright: window 0 holds the left half of the full share and window 1 the right half, likewise 2 and 3.
  Reading needs no more than a positive share, and no window writes U or V.
-/
import proofs.«429307_j4638564680527_3_alg».proof.Proof.Gen.Kernel.Launch
import proofs.«429307_j4638564680527_3_alg».proof.Proof.Gen.Kernel.Skeleton
import proofs.«429307_j4638564680527_3_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The arrays when the region is entered, and a window's block -/

/-- Core `c`'s TensorCore buffers when the region is entered: as launched (the region is @main's first item). -/
abbrev V (c : Dev nD) (b : Ref sig .tc) : Buf (Elt F) ((c : Thread nD τ).loc b) := m ((c : Thread nD τ).loc b)

/-- Window `w`'s block at point `t`, read off its array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, whether that point fetched it or an
    earlier one did and the block index has not moved since: for any proof data on the launch arrays whose body leaves
    the block in place. One statement per input window (the window is a literal in each). -/
theorem before_in0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's accesses and its one store -/

/-- The whole 256 × 4096 input buffer, and the whole 256 × 256 output buffer, as the body's rectangles. -/
abbrev rIn : Rect S256x4096 := Rect.unit (s := S256x4096) ![0, 0] S256x4096.size inb_S256x4096_S256x4096_0_0
abbrev rOut : Rect S256x256 := Rect.unit (s := S256x256) ![0, 0] S256x256.size inb_S256x256_S256x256_0_0

/-- The output buffer after the body, from the four input blocks: its one store, covering the buffer. -/
def outBlock (x0 x1 x2 x3 : Vec F S256x4096 .f32) : Vec F S256x256 .f32 :=
  View.canon [⟨rOut, k0_pay1 (View.ld x0 rIn) (View.ld x1 rIn) (View.ld x2 rIn) (View.ld x3 rIn)⟩]

/-- The one store tiles the buffer. -/
theorem cover_out (p0 : Vec F S256x256 .f32) (y : S256x256.Idx) :
    ∃ pc ∈ ([⟨rOut, p0⟩] : List (View.Piece (Elt F) S256x256 .f32)), y ∈ pc.1.set :=
  View.cover_of_tiled [⟨rOut, p0⟩] S256x256.size (by rfl) y

/-! ## The body's triple -/

set_option maxHeartbeats 1000000 in
/-- The body on whole staging memrefs, the inputs' at contents `x0 … x3` and the output's at anything, runs to the
    continuation holding the inputs' as they were and the output's at `outBlock`. -/
theorem sound_kernel (c : Dev nD) (E : Set ℕ) (i : grid0.Coords)
    (arg2 : Memref sig .tc .vmem S256x4096 .f32) (harg2 : arg2.IsWhole) (arg3 : Memref sig .tc .vmem S256x4096 .f32) (harg3 : arg3.IsWhole)
    (arg4 : Memref sig .tc .vmem S256x4096 .f32) (harg4 : arg4.IsWhole) (arg5 : Memref sig .tc .vmem S256x4096 .f32) (harg5 : arg5.IsWhole)
    (arg6 : Memref sig .tc .vmem S256x256 .f32) (harg6 : arg6.IsWhole)
    (x0 x1 x2 x3 : Vec F S256x4096 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (outBlock x0 x1 x2 x3)) -∗ K ⟨⟩))
      ⊢ wp frame (wpE (defs₀ (F := F)) Variants.none c none) E (cc0__matmul_kernel i arg2 harg2 arg3 harg3 arg4 harg4 arg5 harg5 arg6 harg6) K := by
  simp only [cc0__matmul_kernel_eq_skeleton]; unfold cc0__matmul_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover_out _)

/-! ## The pipeline's proof data -/

/-- The proof data on core `c`. The shares: each of U's two windows holds one half of U, each of V's two one half of V. -/
def dat (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outBlock (iblk m c 0 t) (iblk m c 1 t) (iblk m c 2 t) (iblk m c 3 t)
  Φ _ := Pipeline.ΦA spec0 c
  q w := match w with
    | ⟨0, _⟩ => fullShare.left
    | ⟨1, _⟩ => fullShare.right
    | ⟨2, _⟩ => fullShare.left
    | ⟨3, _⟩ => fullShare.right
    | ⟨4, _⟩ => fullShare
  owed _ := 0

theorem A_eq (c : Dev nD) (w : Fin cfg0.W) : (dat m c).A w = V m c (Pipeline.arrRef spec0 w) := by
  dsimp only [dat]

theorem after_0 (c : Dev nD) (t : Fin cfg0.N) : (dat m c).after 0 t = iblk m c 0 t := by dsimp only [dat]
theorem after_1 (c : Dev nD) (t : Fin cfg0.N) : (dat m c).after 1 t = iblk m c 1 t := by dsimp only [dat]
theorem after_2 (c : Dev nD) (t : Fin cfg0.N) : (dat m c).after 2 t = iblk m c 2 t := by dsimp only [dat]
theorem after_3 (c : Dev nD) (t : Fin cfg0.N) : (dat m c).after 3 t = iblk m c 3 t := by dsimp only [dat]
theorem after_4 (c : Dev nD) (t : Fin cfg0.N) :
    (dat m c).after 4 t = outBlock (iblk m c 0 t) (iblk m c 1 t) (iblk m c 2 t) (iblk m c 3 t) := by dsimp only [dat]

theorem before_0 (c : Dev nD) (t : Fin cfg0.N) (d) : (dat m c).before 0 t d = iblk m c 0 t :=
  before_in0 m (dat m c) (A_eq m c 0) (after_0 m c) t d
theorem before_1 (c : Dev nD) (t : Fin cfg0.N) (d) : (dat m c).before 1 t d = iblk m c 1 t :=
  before_in1 m (dat m c) (A_eq m c 1) (after_1 m c) t d
theorem before_2 (c : Dev nD) (t : Fin cfg0.N) (d) : (dat m c).before 2 t d = iblk m c 2 t :=
  before_in2 m (dat m c) (A_eq m c 2) (after_2 m c) t d
theorem before_3 (c : Dev nD) (t : Fin cfg0.N) (d) : (dat m c).before 3 t d = iblk m c 3 t :=
  before_in3 m (dat m c) (A_eq m c 3) (after_3 m c) t d

/-! ## The body obligation, at a generic point -/

def bodyPre (c : Dev nD) (t : Fin cfg0.N) : sProp 𝕄 :=
  iprop((dat m c).Φ t.castSucc ∗ (dat m c).owesAt () t.castSucc
    ∗ (∃ d, owns (c : Thread nD τ) (st0_0 t) fullShare ((dat m c).before 0 t d))
    ∗ (∃ d, owns (c : Thread nD τ) (st0_1 t) fullShare ((dat m c).before 1 t d))
    ∗ (∃ d, owns (c : Thread nD τ) (st0_2 t) fullShare ((dat m c).before 2 t d))
    ∗ (∃ d, owns (c : Thread nD τ) (st0_3 t) fullShare ((dat m c).before 3 t d))
    ∗ (∃ d, owns (c : Thread nD τ) (st0_4 t) fullShare ((dat m c).before 4 t d)))

def bodyPost (c : Dev nD) (t : Fin cfg0.N) : sProp 𝕄 :=
  iprop((dat m c).Φ t.succ ∗ (dat m c).owesAt () t.succ
    ∗ owns (c : Thread nD τ) (st0_0 t) fullShare ((dat m c).after 0 t)
    ∗ owns (c : Thread nD τ) (st0_1 t) fullShare ((dat m c).after 1 t)
    ∗ owns (c : Thread nD τ) (st0_2 t) fullShare ((dat m c).after 2 t)
    ∗ owns (c : Thread nD τ) (st0_3 t) fullShare ((dat m c).after 3 t)
    ∗ owns (c : Thread nD τ) (st0_4 t) fullShare ((dat m c).after 4 t))

/-- The body at any point: the inputs' memrefs hold their blocks, so the triple applies; the invariant and the core's
    `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dat m c).Φ t.succ = (dat m c).Φ t.castSucc from rfl,
    show (dat m c).owesAt () t.succ = (dat m c).owesAt () t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation (c : Dev nD) : BodyObligation (dat (F := F) m c) (defs₀ (F := F)) Variants.none () Set.univ := fun t => by
  rw [bigSep_W0, bigSep_W0]
  exact sound_body m c t

end Cert.Kernel.Hand

end
-- ==== Proof.Kernel.Shared.lean ====
/-
  One array behind two windows: how the region takes U and V from the core and gives them back.

  The launch hands the region each DISTINCT buffer behind its windows whole, at the full share: U, V and the
  result M. The pipeline wants one holding per WINDOW. U's full share is cut into its left and right halves, one
  for window 0 and one for window 1 (a share is the composite of its two halves); V likewise for windows 2 and 3;
  M goes to window 4 outright. At the exit the halves are put back together — both windows on U still hold U's
  launch contents, an input array never being written — and M is held at what the 256 write-backs left in it.
-/
import proofs.«429307_j4638564680527_3_alg».proof.Proof.Kernel.Body
import Idealize.ShloMosaic.Lib.Pipeline.Frame
import Idealize.ShloMosaic.Lib.Pipeline.Regions

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig Unit (Elt F) ℕ (UR sig nD τ) ℕ

variable (m : (ℓ : Loc nD τ sig) → Buf (Elt F) ℓ)

/-! ## The result array after the region, and the buffers' contents there -/

/-- What the region leaves in the result array: the 256 write-backs folded over its launch contents. -/
def Mout (c : Dev nD) : Buf (Elt F) ((c : Thread nD τ).loc main_v0) := (dat m c).arrAt 4 cfg0.N

/-- Core `c`'s buffers at launch, -/
abbrev W0 (c : Dev nD) : Valuation τ sig (Elt F) := fun b => m (c, b)
/-- and at the region's exit: the result array at `Mout`, every other buffer as launched. -/
def W1 (c : Dev nD) : Valuation τ sig (Elt F) := Function.update (W0 m c) (Proc.devRef .tc main_v0) (Mout m c)

theorem W1_v0 (c : Dev nD) : W1 m c (Proc.devRef .tc main_v0) = Mout m c := by
  unfold W1; exact Function.update_self ..
theorem W1_of_ne (c : Dev nD) (b : Ref sig .tc) (h : b ≠ main_v0) : W1 m c (Proc.devRef .tc b) = m ((c : Thread nD τ).loc b) := by
  unfold W1; rw [Function.update_of_ne (StableHlo.devRef_ne_of_ne h)]

/-! ## The holdings, listed -/

/-- The distinct buffers behind the five windows. -/
theorem arrImage : (Finset.univ.image (Pipeline.arrRef spec0) : Finset (Ref sig .tc)) = [main_arg0, main_arg1, main_v0].toFinset := by decide

/-- What the launch hands the region of them, one by one. -/
theorem arrBufs_eq (c : Dev nD) (X : (b : Ref sig .tc) → Buf (Elt F) ((c : Thread nD τ).loc b)) :
    (Pipeline.arrBufs (Ix := Unit) (Name := ℕ) (U := UR sig nD τ) (Lvl := ℕ) spec0 c X : sProp 𝕄)
      = iprop((((c : Thread nD τ).loc main_arg0) ↦{fullShare} X main_arg0) ∗ (((c : Thread nD τ).loc main_arg1) ↦{fullShare} X main_arg1)
          ∗ (((c : Thread nD τ).loc main_v0) ↦{fullShare} X main_v0)) := by
  unfold Pipeline.arrBufs
  exact bigSep_eq_bigSepL_of_eq _ arrImage (by decide) _

/-- The pipeline's holdings window by window, each at its share. -/
theorem arrays_eq5 (c : Dev nD) (G : (w : Fin cfg0.W) → Buf (Elt F) ((cfg0.win w).arr.view.loc (c : Thread nD τ))) :
    ((dat m c).arrays G : sProp 𝕄)
      = iprop((((c : Thread nD τ).loc main_arg0) ↦{fullShare.left} G 0) ∗ (((c : Thread nD τ).loc main_arg0) ↦{fullShare.right} G 1)
          ∗ (((c : Thread nD τ).loc main_arg1) ↦{fullShare.left} G 2) ∗ (((c : Thread nD τ).loc main_arg1) ↦{fullShare.right} G 3)
          ∗ (((c : Thread nD τ).loc main_v0) ↦{fullShare} G 4)) := by
  have e : ((dat m c).arrays G : sProp 𝕄)
      = bigSep Finset.univ fun w : Fin cfg0.W => (((c : Thread nD τ).loc (Pipeline.arrRef spec0 w)) ↦{(dat m c).share w} G w : sProp 𝕄) := by
    unfold Dat.arrays
    exact bigSep_congr fun w _ => by rw [(arr_whole0 w).set_eq_univ]
  rw [e, bigSep_W0]
  rfl

/-! ## Entry and exit -/

/-- ENTRY: the three buffers at the full share make the five windows' holdings at the launch contents. -/
theorem entry_split (c : Dev nD) :
    (Pipeline.arrBufs (Ix := Unit) (Name := ℕ) (U := UR sig nD τ) (Lvl := ℕ) spec0 c (V m c) : sProp 𝕄)
      ⊢ (dat m c).arrays ((dat m c).arrAt · 0) := by
  rw [arrBufs_eq, arrays_eq5]
  iintro ⟨H0, H1, H4⟩
  ihave H0' := (pointsTo_share (PosShare.mem_left_op_right fullShare)).1 $$ H0
  icases H0' with ⟨H0l, H0r⟩
  ihave H1' := (pointsTo_share (PosShare.mem_left_op_right fullShare)).1 $$ H1
  icases H1' with ⟨H1l, H1r⟩
  isplitl [H0l]; · iexact H0l
  isplitl [H0r]; · iexact H0r
  isplitl [H1l]; · iexact H1l
  isplitl [H1r]; · iexact H1r
  iexact H4

/-- EXIT: the five holdings at the final contents, with the buffers the region never touched, are every unscoped buffer
    at the exit contents `W1`. -/
theorem exit_join (c : Dev nD) :
    iprop((dat m c).arrays ((dat m c).arrAt · cfg0.N)
        ∗ Pipeline.unscopedRest (Ix := Unit) (Name := ℕ) (U := UR sig nD τ) (Lvl := ℕ) spec0 c (V m c))
      ⊢ (unscopedBufs c (fun b => W1 m c b) : sProp 𝕄) := by
  rw [Pipeline.unscopedBufs_split₀ cfgs 0 winFacts₀0.arr_unscoped c, arrBufs_eq, arrays_eq5,
    (dat m c).arrAt_in 0 rfl, (dat m c).arrAt_in 1 rfl, (dat m c).arrAt_in 2 rfl, (dat m c).arrAt_in 3 rfl,
    W1_of_ne m c main_arg0 (by decide), W1_of_ne m c main_arg1 (by decide), W1_v0]
  have hrest : (Pipeline.unscopedRest (Ix := Unit) (Name := ℕ) (U := UR sig nD τ) (Lvl := ℕ) spec0 c (V m c) : sProp 𝕄)
      = Pipeline.unscopedRest spec0 c (fun b => W1 m c b) := by
    unfold Pipeline.unscopedRest
    exact bigSep_congr fun b hb => by
      dsimp only
      rw [W1_of_ne m c b fun e => (Finset.mem_sdiff.mp hb).2 (e ▸ Finset.mem_image.mpr ⟨4, Finset.mem_univ _, rfl⟩)]
  rw [hrest]
  iintro ⟨⟨H0l, H0r, H1l, H1r, H4⟩, Hrest⟩
  isplitr [Hrest]
  · isplitl [H0l H0r]
    · iapply (pointsTo_share (PosShare.mem_left_op_right fullShare)).2
      isplitl [H0l]; · iexact H0l
      iexact H0r
    isplitl [H1l H1r]
    · iapply (pointsTo_share (PosShare.mem_left_op_right fullShare)).2
      isplitl [H1l]; · iexact H1l
      iexact H1r
    iexact H4
  iexact Hrest

end Cert.Kernel.Hand

end
-- ==== Proof.Kernel.Run.lean ====
/-
  The whole of @main: the kernel region, then the eighteen host operations that gather M[x1, x2].

  @main is two items. The region builds M = U·Uᵀ − V·Vᵀ in the result array; the host operations then wrap the
  negative entries of x1 and x2 by 4096, pair them into a table of (row, column) and gather M at it. Between items a
  core holds every unscoped buffer whole at a valuation: the launch contents before the region, the launch contents
  with the result array at `Mout` after it, and those pushed through the eighteen operations at the end; beside them
  ride the generator register (the body's invariant takes it in and gives it back) and the core owing nothing.

  The region's entry cuts the shares of U and V between their two windows and its exit joins them again
  (`entry_split`, `exit_join`); everything else is the launch library's list-of-segments theorem. The last valuation is
  then read against the final memory: the arguments are written by no operation, and the result is the eighteen
  operations' composed function of `Mout`, x1 and x2.
-/
import proofs.«429307_j4638564680527_3_alg».proof.Proof.Kernel.Shared
import Idealize.ShloMosaic.Lib.StableHlo.Run

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations' function -/

/-- The eighteen operations as one function of the table M and the two index vectors: entries below zero are wrapped
    by 4096, the two vectors are laid side by side as (row, column) pairs, and M is gathered at the pairs. -/
def gatherTail (M : (⟨S4096x4096, .f32⟩ : BufTy).Contents (Elt F)) (x1 x2 : (⟨S1048576, .i32⟩ : BufTy).Contents (Elt F)) :
    (⟨S1048576, .f32⟩ : BufTy).Contents (Elt F) :=
  Host.gather gather_S4096x4096_S1048576x2_S1048576_n_01_n_n_01_1_11 M (concatenate S1048576x2 1 [⟨S1048576x1, (broadcastInDim S1048576x1 ![0] bcast_S1048576_S1048576x1_0 (select (cmpi .slt x1 (broadcastInDim S1048576 ![] bcast_S_S1048576 (constantI S_ 32 0#32))) (addi x1 (broadcastInDim S1048576 ![] bcast_S_S1048576 (constantI S_ 32 4096#32))) x1))⟩, ⟨S1048576x1, (broadcastInDim S1048576x1 ![0] bcast_S1048576_S1048576x1_0 (select (cmpi .slt x2 (broadcastInDim S1048576 ![] bcast_S_S1048576 (constantI S_ 32 0#32))) (addi x2 (broadcastInDim S1048576 ![] bcast_S_S1048576 (constantI S_ 32 4096#32))) x2))⟩] concatenates_S1048576x1_S1048576x1_S1048576x2_d1)

/-- Core `c`'s buffers at the end: the eighteen operations run from the region's exit contents. -/
abbrev W2 (c : Dev nD) : Valuation τ sig (Elt F) := StableHlo.after hostOps1 (W1 m c)

/-- No host operation allocates a buffer. -/
theorem hostOps1_fresh : (hostOps1 : List (HloOp τ sig (Elt F))).Forall fun op => op.fresh = ∅ := by
  simp only [List.Forall]; repeat' constructor

/-- No host operation writes an argument, so each argument ends as launched (the region does not change it either). -/
theorem W2_arg0 (c : Dev nD) : W2 m c (Proc.devRef .tc main_arg0) = m ((c : Thread nD τ).loc main_arg0) :=
  (StableHlo.after_of_forall_not_mem (b := Proc.devRef .tc main_arg0) _ _ (List.forall_iff_forall_mem.mp (by
      simp only [hostOps1, List.Forall, StableHlo.nullary_writes, StableHlo.unary_writes, StableHlo.binary_writes, StableHlo.ternary_writes, Finset.mem_singleton]
      repeat' apply And.intro
      all_goals exact StableHlo.devRef_ne_of_ne (by decide)))).trans (W1_of_ne m c main_arg0 (by decide))
theorem W2_arg1 (c : Dev nD) : W2 m c (Proc.devRef .tc main_arg1) = m ((c : Thread nD τ).loc main_arg1) :=
  (StableHlo.after_of_forall_not_mem (b := Proc.devRef .tc main_arg1) _ _ (List.forall_iff_forall_mem.mp (by
      simp only [hostOps1, List.Forall, StableHlo.nullary_writes, StableHlo.unary_writes, StableHlo.binary_writes, StableHlo.ternary_writes, Finset.mem_singleton]
      repeat' apply And.intro
      all_goals exact StableHlo.devRef_ne_of_ne (by decide)))).trans (W1_of_ne m c main_arg1 (by decide))
theorem W2_arg2 (c : Dev nD) : W2 m c (Proc.devRef .tc main_arg2) = m ((c : Thread nD τ).loc main_arg2) :=
  (StableHlo.after_of_forall_not_mem (b := Proc.devRef .tc main_arg2) _ _ (List.forall_iff_forall_mem.mp (by
      simp only [hostOps1, List.Forall, StableHlo.nullary_writes, StableHlo.unary_writes, StableHlo.binary_writes, StableHlo.ternary_writes, Finset.mem_singleton]
      repeat' apply And.intro
      all_goals exact StableHlo.devRef_ne_of_ne (by decide)))).trans (W1_of_ne m c main_arg2 (by decide))
theorem W2_arg3 (c : Dev nD) : W2 m c (Proc.devRef .tc main_arg3) = m ((c : Thread nD τ).loc main_arg3) :=
  (StableHlo.after_of_forall_not_mem (b := Proc.devRef .tc main_arg3) _ _ (List.forall_iff_forall_mem.mp (by
      simp only [hostOps1, List.Forall, StableHlo.nullary_writes, StableHlo.unary_writes, StableHlo.binary_writes, StableHlo.ternary_writes, Finset.mem_singleton]
      repeat' apply And.intro
      all_goals exact StableHlo.devRef_ne_of_ne (by decide)))).trans (W1_of_ne m c main_arg3 (by decide))

/-- The result at the end is the operations' function of what the region left in M and of the launched x1, x2. -/
theorem W2_result (c : Dev nD) :
    W2 m c (Proc.devRef .tc main_v14)
      = gatherTail (Mout m c) (m ((c : Thread nD τ).loc main_arg2)) (m ((c : Thread nD τ).loc main_arg3)) := by
  show StableHlo.after hostOps1 (W1 m c) (Proc.devRef .tc main_v14) = _
  after_results
  rw [W1_v0, W1_of_ne m c main_arg2 (by decide), W1_of_ne m c main_arg3 (by decide)]
  rfl

/-! ## The segments -/

/-- No pallas_call has a prefetched table. -/
abbrev adm : (p : Fin 1) → (pcfgs (F := F) p).Adm := fun p => (cfgs p).toPCfg_adm
/-- The one pipeline's proof data, as a literal match on the pipeline's index. -/
def pdats : (p : Fin 1) → (c : Dev nD) → Dat τ (Elt F) Unit ℕ (UR sig nD τ) ℕ (Pipeline.pin (pcfgs (F := F)) adm p) c
  | ⟨0, _⟩ => fun c => dat m c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers: the generator register at some state, and the core owing nothing. -/
abbrev R (c : Dev nD) : sProp 𝕄 := iprop((∃ r, prngReg c r) ∗ ∃ W, owes (c : Thread nD τ) (0 : CellTallies nD τ sig Unit) W)

/-- The eighteen host operations over every unscoped buffer, from the region's exit contents. -/
abbrev hostSeg : Pipeline.HostSeg (Name := ℕ) (U := UR sig nD τ) (pcfgs (F := F)) defs₀ 𝒱₀ L lv :=
  Pipeline.HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (W1 m) R

set_option backward.isDefEq.respectTransparency.types false in
/-- THE REGION: entered from every unscoped buffer at the launch contents, left with the result array at `Mout`. The
    three buffers behind its windows are cut into the five windows' holdings at entry and joined again at exit; the
    generator register goes into the body's invariant and comes back; nothing is owed; the kernel has no semaphore of its own. -/
def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (body_obligation m c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V m c)
  hentry c := by
    rw [Pipeline.ownSems0_none]
    have hsplit : (StableHlo.held (c : Thread nD τ) (Pipeline.ucRefs τ sig) (W0 m c) : sProp 𝕄)
        ⊢ iprop((dat m c).arrays ((dat m c).arrAt · 0)
            ∗ Pipeline.unscopedRest (Ix := Unit) (Name := ℕ) (U := UR sig nD τ) (Lvl := ℕ) spec0 c (V m c)) := by
      rw [← Pipeline.unscopedBufs_held (Ix := Unit) (Name := ℕ) (U := UR sig nD τ) (Lvl := ℕ) c (W0 m c)]
      exact (Entails.of_eq (Pipeline.unscopedBufs_split₀ cfgs 0 winFacts₀0.arr_unscoped c (V m c))).trans (sep_mono (entry_split m c) .rfl)
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin : iprop((dat m c).arrays ((dat m c).arrAt · cfg0.N)
          ∗ Pipeline.unscopedRest (Ix := Unit) (Name := ℕ) (U := UR sig nD τ) (Lvl := ℕ) spec0 c (V m c))
        ⊢ (StableHlo.held (c : Thread nD τ) (Pipeline.ucRefs τ sig) (W1 m c) : sProp 𝕄) := by
      rw [← Pipeline.unscopedBufs_held (Ix := Unit) (Name := ℕ) (U := UR sig nD τ) (Lvl := ℕ) c (W1 m c)]
      exact exit_join m c
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-- @main's two segments in order. -/
abbrev segs : List (Pipeline.Seg (pcfgs (F := F)) adm (pdats m) () defs₀ 𝒱₀ L lv) :=
  [.region (reg0 m), .host (hostSeg m)]

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN. At the compiled mesh, for any float values, from any memory with zero counters: every weakly fair execution
    of @main terminates, nothing faulting, and every final memory holds every unscoped buffer at the last valuation. -/
theorem run_main : θ_run defs (onTc (τ := τ) (main (F := F))) ⟨m, fun _ => 0, ρ⟩
    (fun r => ∀ c : Dev nD, ∀ b ∈ Pipeline.ucRefs τ sig, r.2.mem ((c : Thread nD τ).1, b) = W2 m c b) :=
  Pipeline.θ_run_regions_kit (pcfgs (F := F)) adm (pdats m) () cellOf_inj emb₁ defs₀ 𝒱₀ L lv m ρ main (segs m)
    (fun c Q => by rw [main_segs adm (pdats m) () 𝒱₀ L lv (hostSeg m) (reg0 m) rfl c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c))
    (Tₙ := fun c => iprop(StableHlo.held (c : Thread nD τ) (Pipeline.ucRefs τ sig) (W2 m c) ∗ ∃ r, prngReg c r))
    (hch := ⟨fun _ => .rfl, fun _ => .rfl, fun c => by
      show iprop(StableHlo.held (c : Thread nD τ) (Pipeline.ucRefs τ sig) (W2 m c) ∗ R c)
        ⊢ iprop((StableHlo.held (c : Thread nD τ) (Pipeline.ucRefs τ sig) (W2 m c) ∗ ∃ r, prngReg c r)
            ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m c b)
    (hfin := fun c s' => by
      iintro ⟨⟨Hh, -⟩, HSI⟩
      unfold StableHlo.held
      imodintro
      iapply (pointsTo_read_all (Pipeline.ucRefs τ sig) (fun b => (((c : Thread nD τ)).1, b)) (W2 m c) s')
      isplitl [Hh] <;> iassumption)
    (hQ := fun s h => h)

/-- THE FRAME, at any `F`: @main runs to the end and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (W2_arg0 m c), (h c _ (mem_uc main_arg1 (by decide))).trans (W2_arg1 m c),
      (h c _ (mem_uc main_arg2 (by decide))).trans (W2_arg2 m c), (h c _ (mem_uc main_arg3 (by decide))).trans (W2_arg3 m c)⟩) (run_main m ρ)

/-- THE RUN WITH ITS RESULT: also the result array ends at the host operations' function of `Mout`, x1 and x2. -/
theorem run_result : θ_run defs (onTc (τ := τ) (main (F := F))) ⟨m, fun _ => 0, ρ⟩ (fun r => ∀ c : Dev nD,
      r.2.mem ((c.tc : Thread nD τ).loc main_v14)
          = gatherTail (Mout m c) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_v14 (by decide))).trans (W2_result m c),
      (h c _ (mem_uc main_arg0 (by decide))).trans (W2_arg0 m c), (h c _ (mem_uc main_arg1 (by decide))).trans (W2_arg1 m c),
      (h c _ (mem_uc main_arg2 (by decide))).trans (W2_arg2 m c), (h c _ (mem_uc main_arg3 (by decide))).trans (W2_arg3 m c)⟩) (run_main m ρ)

end Cert.Kernel.Hand

end
-- ==== Proof.KernelIdeal.Body.lean ====
/-
  The matmul kernel's body at one grid point, and the pipeline's proof data.

  The pallas_call has five windows on a 16 × 16 grid: windows 0 and 1 are both on the first argument U
  (row block i and row block j, each 256 × 4096), windows 2 and 3 both on the second argument V (the same
  two row blocks), window 4 is the result's 256 × 256 block (i, j). At a point the body loads the four
  input blocks, forms  u_i · u_jᵀ − v_i · v_jᵀ  (two products contracting the long axis, into a zero
  accumulator, then a difference) and stores it over the whole output block.

  Proof data: the arrays as launched; after the body an input's staging buffer still holds its block and
  the output's holds the body's one store read back; the invariant is the scoped rest and the generator
  register, untouched. Because U (and V) is read through TWO windows, neither window can hold the array
  outright: window 0 holds the left half of the full share and window 1 the right half, likewise 2 and 3.
  Reading needs no more than a positive share, and no window writes U or V.
-/
import proofs.«429307_j4638564680527_3_alg».proof.Proof.Gen.KernelIdeal.Launch
import proofs.«429307_j4638564680527_3_alg».proof.Proof.Gen.KernelIdeal.Skeleton
import proofs.«429307_j4638564680527_3_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The arrays when the region is entered, and a window's block -/

/-- Core `c`'s TensorCore buffers when the region is entered: as launched (the region is @main's first item). -/
abbrev V (c : Dev nD) (b : Ref sig .tc) : Buf (Elt F) ((c : Thread nD τ).loc b) := m ((c : Thread nD τ).loc b)

/-- Window `w`'s block at point `t`, read off its array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, whether that point fetched it or an
    earlier one did and the block index has not moved since: for any proof data on the launch arrays whose body leaves
    the block in place. One statement per input window (the window is a literal in each). -/
theorem before_in0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's accesses and its one store -/

/-- The whole 256 × 4096 input buffer, and the whole 256 × 256 output buffer, as the body's rectangles. -/
abbrev rIn : Rect S256x4096 := Rect.unit (s := S256x4096) ![0, 0] S256x4096.size inb_S256x4096_S256x4096_0_0
abbrev rOut : Rect S256x256 := Rect.unit (s := S256x256) ![0, 0] S256x256.size inb_S256x256_S256x256_0_0

/-- The output buffer after the body, from the four input blocks: its one store, covering the buffer. -/
def outBlock (x0 x1 x2 x3 : Vec F S256x4096 .f32) : Vec F S256x256 .f32 :=
  View.canon [⟨rOut, k0_pay1 (View.ld x0 rIn) (View.ld x1 rIn) (View.ld x2 rIn) (View.ld x3 rIn)⟩]

/-- The one store tiles the buffer. -/
theorem cover_out (p0 : Vec F S256x256 .f32) (y : S256x256.Idx) :
    ∃ pc ∈ ([⟨rOut, p0⟩] : List (View.Piece (Elt F) S256x256 .f32)), y ∈ pc.1.set :=
  View.cover_of_tiled [⟨rOut, p0⟩] S256x256.size (by rfl) y

/-! ## The body's triple -/

set_option maxHeartbeats 1000000 in
/-- The body on whole staging memrefs, the inputs' at contents `x0 … x3` and the output's at anything, runs to the
    continuation holding the inputs' as they were and the output's at `outBlock`. -/
theorem sound_kernel (c : Dev nD) (E : Set ℕ) (i : grid0.Coords)
    (arg2 : Memref sig .tc .vmem S256x4096 .f32) (harg2 : arg2.IsWhole) (arg3 : Memref sig .tc .vmem S256x4096 .f32) (harg3 : arg3.IsWhole)
    (arg4 : Memref sig .tc .vmem S256x4096 .f32) (harg4 : arg4.IsWhole) (arg5 : Memref sig .tc .vmem S256x4096 .f32) (harg5 : arg5.IsWhole)
    (arg6 : Memref sig .tc .vmem S256x256 .f32) (harg6 : arg6.IsWhole)
    (x0 x1 x2 x3 : Vec F S256x4096 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (outBlock x0 x1 x2 x3)) -∗ K ⟨⟩))
      ⊢ wp frame (wpE (defs₀ (F := F)) Variants.none c none) E (cc0__matmul_kernel i arg2 harg2 arg3 harg3 arg4 harg4 arg5 harg5 arg6 harg6) K := by
  simp only [cc0__matmul_kernel_eq_skeleton]; unfold cc0__matmul_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover_out _)

/-! ## The pipeline's proof data -/

/-- The proof data on core `c`. The shares: each of U's two windows holds one half of U, each of V's two one half of V. -/
def dat (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outBlock (iblk m c 0 t) (iblk m c 1 t) (iblk m c 2 t) (iblk m c 3 t)
  Φ _ := Pipeline.ΦA spec0 c
  q w := match w with
    | ⟨0, _⟩ => fullShare.left
    | ⟨1, _⟩ => fullShare.right
    | ⟨2, _⟩ => fullShare.left
    | ⟨3, _⟩ => fullShare.right
    | ⟨4, _⟩ => fullShare
  owed _ := 0

theorem A_eq (c : Dev nD) (w : Fin cfg0.W) : (dat m c).A w = V m c (Pipeline.arrRef spec0 w) := by
  dsimp only [dat]

theorem after_0 (c : Dev nD) (t : Fin cfg0.N) : (dat m c).after 0 t = iblk m c 0 t := by dsimp only [dat]
theorem after_1 (c : Dev nD) (t : Fin cfg0.N) : (dat m c).after 1 t = iblk m c 1 t := by dsimp only [dat]
theorem after_2 (c : Dev nD) (t : Fin cfg0.N) : (dat m c).after 2 t = iblk m c 2 t := by dsimp only [dat]
theorem after_3 (c : Dev nD) (t : Fin cfg0.N) : (dat m c).after 3 t = iblk m c 3 t := by dsimp only [dat]
theorem after_4 (c : Dev nD) (t : Fin cfg0.N) :
    (dat m c).after 4 t = outBlock (iblk m c 0 t) (iblk m c 1 t) (iblk m c 2 t) (iblk m c 3 t) := by dsimp only [dat]

theorem before_0 (c : Dev nD) (t : Fin cfg0.N) (d) : (dat m c).before 0 t d = iblk m c 0 t :=
  before_in0 m (dat m c) (A_eq m c 0) (after_0 m c) t d
theorem before_1 (c : Dev nD) (t : Fin cfg0.N) (d) : (dat m c).before 1 t d = iblk m c 1 t :=
  before_in1 m (dat m c) (A_eq m c 1) (after_1 m c) t d
theorem before_2 (c : Dev nD) (t : Fin cfg0.N) (d) : (dat m c).before 2 t d = iblk m c 2 t :=
  before_in2 m (dat m c) (A_eq m c 2) (after_2 m c) t d
theorem before_3 (c : Dev nD) (t : Fin cfg0.N) (d) : (dat m c).before 3 t d = iblk m c 3 t :=
  before_in3 m (dat m c) (A_eq m c 3) (after_3 m c) t d

/-! ## The body obligation, at a generic point -/

def bodyPre (c : Dev nD) (t : Fin cfg0.N) : sProp 𝕄 :=
  iprop((dat m c).Φ t.castSucc ∗ (dat m c).owesAt () t.castSucc
    ∗ (∃ d, owns (c : Thread nD τ) (st0_0 t) fullShare ((dat m c).before 0 t d))
    ∗ (∃ d, owns (c : Thread nD τ) (st0_1 t) fullShare ((dat m c).before 1 t d))
    ∗ (∃ d, owns (c : Thread nD τ) (st0_2 t) fullShare ((dat m c).before 2 t d))
    ∗ (∃ d, owns (c : Thread nD τ) (st0_3 t) fullShare ((dat m c).before 3 t d))
    ∗ (∃ d, owns (c : Thread nD τ) (st0_4 t) fullShare ((dat m c).before 4 t d)))

def bodyPost (c : Dev nD) (t : Fin cfg0.N) : sProp 𝕄 :=
  iprop((dat m c).Φ t.succ ∗ (dat m c).owesAt () t.succ
    ∗ owns (c : Thread nD τ) (st0_0 t) fullShare ((dat m c).after 0 t)
    ∗ owns (c : Thread nD τ) (st0_1 t) fullShare ((dat m c).after 1 t)
    ∗ owns (c : Thread nD τ) (st0_2 t) fullShare ((dat m c).after 2 t)
    ∗ owns (c : Thread nD τ) (st0_3 t) fullShare ((dat m c).after 3 t)
    ∗ owns (c : Thread nD τ) (st0_4 t) fullShare ((dat m c).after 4 t))

/-- The body at any point: the inputs' memrefs hold their blocks, so the triple applies; the invariant and the core's
    `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dat m c).Φ t.succ = (dat m c).Φ t.castSucc from rfl,
    show (dat m c).owesAt () t.succ = (dat m c).owesAt () t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation (c : Dev nD) : BodyObligation (dat (F := F) m c) (defs₀ (F := F)) Variants.none () Set.univ := fun t => by
  rw [bigSep_W0, bigSep_W0]
  exact sound_body m c t

end Cert.KernelIdeal.Hand

end
-- ==== Proof.KernelIdeal.Shared.lean ====
/-
  One array behind two windows: how the region takes U and V from the core and gives them back.

  The launch hands the region each DISTINCT buffer behind its windows whole, at the full share: U, V and the
  result M. The pipeline wants one holding per WINDOW. U's full share is cut into its left and right halves, one
  for window 0 and one for window 1 (a share is the composite of its two halves); V likewise for windows 2 and 3;
  M goes to window 4 outright. At the exit the halves are put back together — both windows on U still hold U's
  launch contents, an input array never being written — and M is held at what the 256 write-backs left in it.
-/
import proofs.«429307_j4638564680527_3_alg».proof.Proof.KernelIdeal.Body
import Idealize.ShloMosaic.Lib.Pipeline.Frame
import Idealize.ShloMosaic.Lib.Pipeline.Regions

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig Unit (Elt F) ℕ (UR sig nD τ) ℕ

variable (m : (ℓ : Loc nD τ sig) → Buf (Elt F) ℓ)

/-! ## The result array after the region, and the buffers' contents there -/

/-- What the region leaves in the result array: the 256 write-backs folded over its launch contents. -/
def Mout (c : Dev nD) : Buf (Elt F) ((c : Thread nD τ).loc main_v0) := (dat m c).arrAt 4 cfg0.N

/-- Core `c`'s buffers at launch, -/
abbrev W0 (c : Dev nD) : Valuation τ sig (Elt F) := fun b => m (c, b)
/-- and at the region's exit: the result array at `Mout`, every other buffer as launched. -/
def W1 (c : Dev nD) : Valuation τ sig (Elt F) := Function.update (W0 m c) (Proc.devRef .tc main_v0) (Mout m c)

theorem W1_v0 (c : Dev nD) : W1 m c (Proc.devRef .tc main_v0) = Mout m c := by
  unfold W1; exact Function.update_self ..
theorem W1_of_ne (c : Dev nD) (b : Ref sig .tc) (h : b ≠ main_v0) : W1 m c (Proc.devRef .tc b) = m ((c : Thread nD τ).loc b) := by
  unfold W1; rw [Function.update_of_ne (StableHlo.devRef_ne_of_ne h)]

/-! ## The holdings, listed -/

/-- The distinct buffers behind the five windows. -/
theorem arrImage : (Finset.univ.image (Pipeline.arrRef spec0) : Finset (Ref sig .tc)) = [main_arg0, main_arg1, main_v0].toFinset := by decide

/-- What the launch hands the region of them, one by one. -/
theorem arrBufs_eq (c : Dev nD) (X : (b : Ref sig .tc) → Buf (Elt F) ((c : Thread nD τ).loc b)) :
    (Pipeline.arrBufs (Ix := Unit) (Name := ℕ) (U := UR sig nD τ) (Lvl := ℕ) spec0 c X : sProp 𝕄)
      = iprop((((c : Thread nD τ).loc main_arg0) ↦{fullShare} X main_arg0) ∗ (((c : Thread nD τ).loc main_arg1) ↦{fullShare} X main_arg1)
          ∗ (((c : Thread nD τ).loc main_v0) ↦{fullShare} X main_v0)) := by
  unfold Pipeline.arrBufs
  exact bigSep_eq_bigSepL_of_eq _ arrImage (by decide) _

/-- The pipeline's holdings window by window, each at its share. -/
theorem arrays_eq5 (c : Dev nD) (G : (w : Fin cfg0.W) → Buf (Elt F) ((cfg0.win w).arr.view.loc (c : Thread nD τ))) :
    ((dat m c).arrays G : sProp 𝕄)
      = iprop((((c : Thread nD τ).loc main_arg0) ↦{fullShare.left} G 0) ∗ (((c : Thread nD τ).loc main_arg0) ↦{fullShare.right} G 1)
          ∗ (((c : Thread nD τ).loc main_arg1) ↦{fullShare.left} G 2) ∗ (((c : Thread nD τ).loc main_arg1) ↦{fullShare.right} G 3)
          ∗ (((c : Thread nD τ).loc main_v0) ↦{fullShare} G 4)) := by
  have e : ((dat m c).arrays G : sProp 𝕄)
      = bigSep Finset.univ fun w : Fin cfg0.W => (((c : Thread nD τ).loc (Pipeline.arrRef spec0 w)) ↦{(dat m c).share w} G w : sProp 𝕄) := by
    unfold Dat.arrays
    exact bigSep_congr fun w _ => by rw [(arr_whole0 w).set_eq_univ]
  rw [e, bigSep_W0]
  rfl

/-! ## Entry and exit -/

/-- ENTRY: the three buffers at the full share make the five windows' holdings at the launch contents. -/
theorem entry_split (c : Dev nD) :
    (Pipeline.arrBufs (Ix := Unit) (Name := ℕ) (U := UR sig nD τ) (Lvl := ℕ) spec0 c (V m c) : sProp 𝕄)
      ⊢ (dat m c).arrays ((dat m c).arrAt · 0) := by
  rw [arrBufs_eq, arrays_eq5]
  iintro ⟨H0, H1, H4⟩
  ihave H0' := (pointsTo_share (PosShare.mem_left_op_right fullShare)).1 $$ H0
  icases H0' with ⟨H0l, H0r⟩
  ihave H1' := (pointsTo_share (PosShare.mem_left_op_right fullShare)).1 $$ H1
  icases H1' with ⟨H1l, H1r⟩
  isplitl [H0l]; · iexact H0l
  isplitl [H0r]; · iexact H0r
  isplitl [H1l]; · iexact H1l
  isplitl [H1r]; · iexact H1r
  iexact H4

/-- EXIT: the five holdings at the final contents, with the buffers the region never touched, are every unscoped buffer
    at the exit contents `W1`. -/
theorem exit_join (c : Dev nD) :
    iprop((dat m c).arrays ((dat m c).arrAt · cfg0.N)
        ∗ Pipeline.unscopedRest (Ix := Unit) (Name := ℕ) (U := UR sig nD τ) (Lvl := ℕ) spec0 c (V m c))
      ⊢ (unscopedBufs c (fun b => W1 m c b) : sProp 𝕄) := by
  rw [Pipeline.unscopedBufs_split₀ cfgs 0 winFacts₀0.arr_unscoped c, arrBufs_eq, arrays_eq5,
    (dat m c).arrAt_in 0 rfl, (dat m c).arrAt_in 1 rfl, (dat m c).arrAt_in 2 rfl, (dat m c).arrAt_in 3 rfl,
    W1_of_ne m c main_arg0 (by decide), W1_of_ne m c main_arg1 (by decide), W1_v0]
  have hrest : (Pipeline.unscopedRest (Ix := Unit) (Name := ℕ) (U := UR sig nD τ) (Lvl := ℕ) spec0 c (V m c) : sProp 𝕄)
      = Pipeline.unscopedRest spec0 c (fun b => W1 m c b) := by
    unfold Pipeline.unscopedRest
    exact bigSep_congr fun b hb => by
      dsimp only
      rw [W1_of_ne m c b fun e => (Finset.mem_sdiff.mp hb).2 (e ▸ Finset.mem_image.mpr ⟨4, Finset.mem_univ _, rfl⟩)]
  rw [hrest]
  iintro ⟨⟨H0l, H0r, H1l, H1r, H4⟩, Hrest⟩
  isplitr [Hrest]
  · isplitl [H0l H0r]
    · iapply (pointsTo_share (PosShare.mem_left_op_right fullShare)).2
      isplitl [H0l]; · iexact H0l
      iexact H0r
    isplitl [H1l H1r]
    · iapply (pointsTo_share (PosShare.mem_left_op_right fullShare)).2
      isplitl [H1l]; · iexact H1l
      iexact H1r
    iexact H4
  iexact Hrest

end Cert.KernelIdeal.Hand

end
-- ==== Proof.KernelIdeal.Run.lean ====
/-
  The whole of @main: the kernel region, then the eighteen host operations that gather M[x1, x2].

  @main is two items. The region builds M = U·Uᵀ − V·Vᵀ in the result array; the host operations then wrap the
  negative entries of x1 and x2 by 4096, pair them into a table of (row, column) and gather M at it. Between items a
  core holds every unscoped buffer whole at a valuation: the launch contents before the region, the launch contents
  with the result array at `Mout` after it, and those pushed through the eighteen operations at the end; beside them
  ride the generator register (the body's invariant takes it in and gives it back) and the core owing nothing.

  The region's entry cuts the shares of U and V between their two windows and its exit joins them again
  (`entry_split`, `exit_join`); everything else is the launch library's list-of-segments theorem. The last valuation is
  then read against the final memory: the arguments are written by no operation, and the result is the eighteen
  operations' composed function of `Mout`, x1 and x2.
-/
import proofs.«429307_j4638564680527_3_alg».proof.Proof.KernelIdeal.Shared
import Idealize.ShloMosaic.Lib.StableHlo.Run

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations' function -/

/-- The eighteen operations as one function of the table M and the two index vectors: entries below zero are wrapped
    by 4096, the two vectors are laid side by side as (row, column) pairs, and M is gathered at the pairs. -/
def gatherTail (M : (⟨S4096x4096, .f32⟩ : BufTy).Contents (Elt F)) (x1 x2 : (⟨S1048576, .i32⟩ : BufTy).Contents (Elt F)) :
    (⟨S1048576, .f32⟩ : BufTy).Contents (Elt F) :=
  Host.gather gather_S4096x4096_S1048576x2_S1048576_n_01_n_n_01_1_11 M (concatenate S1048576x2 1 [⟨S1048576x1, (broadcastInDim S1048576x1 ![0] bcast_S1048576_S1048576x1_0 (select (cmpi .slt x1 (broadcastInDim S1048576 ![] bcast_S_S1048576 (constantI S_ 32 0#32))) (addi x1 (broadcastInDim S1048576 ![] bcast_S_S1048576 (constantI S_ 32 4096#32))) x1))⟩, ⟨S1048576x1, (broadcastInDim S1048576x1 ![0] bcast_S1048576_S1048576x1_0 (select (cmpi .slt x2 (broadcastInDim S1048576 ![] bcast_S_S1048576 (constantI S_ 32 0#32))) (addi x2 (broadcastInDim S1048576 ![] bcast_S_S1048576 (constantI S_ 32 4096#32))) x2))⟩] concatenates_S1048576x1_S1048576x1_S1048576x2_d1)

/-- Core `c`'s buffers at the end: the eighteen operations run from the region's exit contents. -/
abbrev W2 (c : Dev nD) : Valuation τ sig (Elt F) := StableHlo.after hostOps1 (W1 m c)

/-- No host operation allocates a buffer. -/
theorem hostOps1_fresh : (hostOps1 : List (HloOp τ sig (Elt F))).Forall fun op => op.fresh = ∅ := by
  simp only [List.Forall]; repeat' constructor

/-- No host operation writes an argument, so each argument ends as launched (the region does not change it either). -/
theorem W2_arg0 (c : Dev nD) : W2 m c (Proc.devRef .tc main_arg0) = m ((c : Thread nD τ).loc main_arg0) :=
  (StableHlo.after_of_forall_not_mem (b := Proc.devRef .tc main_arg0) _ _ (List.forall_iff_forall_mem.mp (by
      simp only [hostOps1, List.Forall, StableHlo.nullary_writes, StableHlo.unary_writes, StableHlo.binary_writes, StableHlo.ternary_writes, Finset.mem_singleton]
      repeat' apply And.intro
      all_goals exact StableHlo.devRef_ne_of_ne (by decide)))).trans (W1_of_ne m c main_arg0 (by decide))
theorem W2_arg1 (c : Dev nD) : W2 m c (Proc.devRef .tc main_arg1) = m ((c : Thread nD τ).loc main_arg1) :=
  (StableHlo.after_of_forall_not_mem (b := Proc.devRef .tc main_arg1) _ _ (List.forall_iff_forall_mem.mp (by
      simp only [hostOps1, List.Forall, StableHlo.nullary_writes, StableHlo.unary_writes, StableHlo.binary_writes, StableHlo.ternary_writes, Finset.mem_singleton]
      repeat' apply And.intro
      all_goals exact StableHlo.devRef_ne_of_ne (by decide)))).trans (W1_of_ne m c main_arg1 (by decide))
theorem W2_arg2 (c : Dev nD) : W2 m c (Proc.devRef .tc main_arg2) = m ((c : Thread nD τ).loc main_arg2) :=
  (StableHlo.after_of_forall_not_mem (b := Proc.devRef .tc main_arg2) _ _ (List.forall_iff_forall_mem.mp (by
      simp only [hostOps1, List.Forall, StableHlo.nullary_writes, StableHlo.unary_writes, StableHlo.binary_writes, StableHlo.ternary_writes, Finset.mem_singleton]
      repeat' apply And.intro
      all_goals exact StableHlo.devRef_ne_of_ne (by decide)))).trans (W1_of_ne m c main_arg2 (by decide))
theorem W2_arg3 (c : Dev nD) : W2 m c (Proc.devRef .tc main_arg3) = m ((c : Thread nD τ).loc main_arg3) :=
  (StableHlo.after_of_forall_not_mem (b := Proc.devRef .tc main_arg3) _ _ (List.forall_iff_forall_mem.mp (by
      simp only [hostOps1, List.Forall, StableHlo.nullary_writes, StableHlo.unary_writes, StableHlo.binary_writes, StableHlo.ternary_writes, Finset.mem_singleton]
      repeat' apply And.intro
      all_goals exact StableHlo.devRef_ne_of_ne (by decide)))).trans (W1_of_ne m c main_arg3 (by decide))

/-- The result at the end is the operations' function of what the region left in M and of the launched x1, x2. -/
theorem W2_result (c : Dev nD) :
    W2 m c (Proc.devRef .tc main_v14)
      = gatherTail (Mout m c) (m ((c : Thread nD τ).loc main_arg2)) (m ((c : Thread nD τ).loc main_arg3)) := by
  show StableHlo.after hostOps1 (W1 m c) (Proc.devRef .tc main_v14) = _
  after_results
  rw [W1_v0, W1_of_ne m c main_arg2 (by decide), W1_of_ne m c main_arg3 (by decide)]
  rfl

/-! ## The segments -/

/-- No pallas_call has a prefetched table. -/
abbrev adm : (p : Fin 1) → (pcfgs (F := F) p).Adm := fun p => (cfgs p).toPCfg_adm
/-- The one pipeline's proof data, as a literal match on the pipeline's index. -/
def pdats : (p : Fin 1) → (c : Dev nD) → Dat τ (Elt F) Unit ℕ (UR sig nD τ) ℕ (Pipeline.pin (pcfgs (F := F)) adm p) c
  | ⟨0, _⟩ => fun c => dat m c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers: the generator register at some state, and the core owing nothing. -/
abbrev R (c : Dev nD) : sProp 𝕄 := iprop((∃ r, prngReg c r) ∗ ∃ W, owes (c : Thread nD τ) (0 : CellTallies nD τ sig Unit) W)

/-- The eighteen host operations over every unscoped buffer, from the region's exit contents. -/
abbrev hostSeg : Pipeline.HostSeg (Name := ℕ) (U := UR sig nD τ) (pcfgs (F := F)) defs₀ 𝒱₀ L lv :=
  Pipeline.HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (W1 m) R

set_option backward.isDefEq.respectTransparency.types false in
/-- THE REGION: entered from every unscoped buffer at the launch contents, left with the result array at `Mout`. The
    three buffers behind its windows are cut into the five windows' holdings at entry and joined again at exit; the
    generator register goes into the body's invariant and comes back; nothing is owed; the kernel has no semaphore of its own. -/
def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (body_obligation m c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V m c)
  hentry c := by
    rw [Pipeline.ownSems0_none]
    have hsplit : (StableHlo.held (c : Thread nD τ) (Pipeline.ucRefs τ sig) (W0 m c) : sProp 𝕄)
        ⊢ iprop((dat m c).arrays ((dat m c).arrAt · 0)
            ∗ Pipeline.unscopedRest (Ix := Unit) (Name := ℕ) (U := UR sig nD τ) (Lvl := ℕ) spec0 c (V m c)) := by
      rw [← Pipeline.unscopedBufs_held (Ix := Unit) (Name := ℕ) (U := UR sig nD τ) (Lvl := ℕ) c (W0 m c)]
      exact (Entails.of_eq (Pipeline.unscopedBufs_split₀ cfgs 0 winFacts₀0.arr_unscoped c (V m c))).trans (sep_mono (entry_split m c) .rfl)
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin : iprop((dat m c).arrays ((dat m c).arrAt · cfg0.N)
          ∗ Pipeline.unscopedRest (Ix := Unit) (Name := ℕ) (U := UR sig nD τ) (Lvl := ℕ) spec0 c (V m c))
        ⊢ (StableHlo.held (c : Thread nD τ) (Pipeline.ucRefs τ sig) (W1 m c) : sProp 𝕄) := by
      rw [← Pipeline.unscopedBufs_held (Ix := Unit) (Name := ℕ) (U := UR sig nD τ) (Lvl := ℕ) c (W1 m c)]
      exact exit_join m c
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-- @main's two segments in order. -/
abbrev segs : List (Pipeline.Seg (pcfgs (F := F)) adm (pdats m) () defs₀ 𝒱₀ L lv) :=
  [.region (reg0 m), .host (hostSeg m)]

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN. At the compiled mesh, for any float values, from any memory with zero counters: every weakly fair execution
    of @main terminates, nothing faulting, and every final memory holds every unscoped buffer at the last valuation. -/
theorem run_main : θ_run defs (onTc (τ := τ) (main (F := F))) ⟨m, fun _ => 0, ρ⟩
    (fun r => ∀ c : Dev nD, ∀ b ∈ Pipeline.ucRefs τ sig, r.2.mem ((c : Thread nD τ).1, b) = W2 m c b) :=
  Pipeline.θ_run_regions_kit (pcfgs (F := F)) adm (pdats m) () cellOf_inj emb₁ defs₀ 𝒱₀ L lv m ρ main (segs m)
    (fun c Q => by rw [main_segs adm (pdats m) () 𝒱₀ L lv (hostSeg m) (reg0 m) rfl c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c))
    (Tₙ := fun c => iprop(StableHlo.held (c : Thread nD τ) (Pipeline.ucRefs τ sig) (W2 m c) ∗ ∃ r, prngReg c r))
    (hch := ⟨fun _ => .rfl, fun _ => .rfl, fun c => by
      show iprop(StableHlo.held (c : Thread nD τ) (Pipeline.ucRefs τ sig) (W2 m c) ∗ R c)
        ⊢ iprop((StableHlo.held (c : Thread nD τ) (Pipeline.ucRefs τ sig) (W2 m c) ∗ ∃ r, prngReg c r)
            ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m c b)
    (hfin := fun c s' => by
      iintro ⟨⟨Hh, -⟩, HSI⟩
      unfold StableHlo.held
      imodintro
      iapply (pointsTo_read_all (Pipeline.ucRefs τ sig) (fun b => (((c : Thread nD τ)).1, b)) (W2 m c) s')
      isplitl [Hh] <;> iassumption)
    (hQ := fun s h => h)

/-- THE FRAME, at any `F`: @main runs to the end and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (W2_arg0 m c), (h c _ (mem_uc main_arg1 (by decide))).trans (W2_arg1 m c),
      (h c _ (mem_uc main_arg2 (by decide))).trans (W2_arg2 m c), (h c _ (mem_uc main_arg3 (by decide))).trans (W2_arg3 m c)⟩) (run_main m ρ)

/-- THE RUN WITH ITS RESULT: also the result array ends at the host operations' function of `Mout`, x1 and x2. -/
theorem run_result : θ_run defs (onTc (τ := τ) (main (F := F))) ⟨m, fun _ => 0, ρ⟩ (fun r => ∀ c : Dev nD,
      r.2.mem ((c.tc : Thread nD τ).loc main_v14)
          = gatherTail (Mout m c) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_v14 (by decide))).trans (W2_result m c),
      (h c _ (mem_uc main_arg0 (by decide))).trans (W2_arg0 m c), (h c _ (mem_uc main_arg1 (by decide))).trans (W2_arg1 m c),
      (h c _ (mem_uc main_arg2 (by decide))).trans (W2_arg2 m c), (h c _ (mem_uc main_arg3 (by decide))).trans (W2_arg3 m c)⟩) (run_main m ρ)

end Cert.KernelIdeal.Hand

end
-- ==== Proof.KernelIdeal.Payload.lean ====
/-
  The body's one stored value, read at an entry of the output block.

  Each of the body's two products contracts the LONG axis of both operands (axis 1 against axis 1, no transposed copy),
  into a zero accumulator: at the ideal instance its (p, q) entry is Σ_k x (p, k) · y (q, k), a plain sum over the 4096
  columns. The stored value is the difference of the two products, so entry (p, q) of the block is

      Σ_k x0 (p, k) · x1 (q, k)  −  Σ_k x2 (p, k) · x3 (q, k).
-/
import proofs.«429307_j4638564680527_3_alg».proof.Proof.Gen.KernelIdeal.Skeleton
import Idealize.ShloMosaic.PureOps.Ideal.Laws
import Idealize.ShloMosaic.Lib.ValueIdx

noncomputable section

namespace Cert.KernelIdeal.Hand

open Cert.KernelIdeal Cert.KernelIdeal.Gen
open Idealize.ShloMosaic Idealize.ShloMosaic.ValueIdx

/-- Where the product reads its left operand: axis 0 is the output's row, axis 1 the contracted column. -/
theorem lhs_nt_0 (i : S256x256.Idx) (q : dot_S256x4096_S256x4096_S256x256_1_1_0_0_n_n.contr.Idx) :
    (dot_S256x4096_S256x4096_S256x256_1_1_0_0_n_n.lhsIdx i q 0).val = (i 0).val := by
  unfold DotDims.lhsIdx
  rw [dif_neg (show ¬(0 : Fin S256x4096.rank) ∈ dot_S256x4096_S256x4096_S256x256_1_1_0_0_n_n.lhsBatch by decide), dif_pos (show (0 : Fin S256x4096.rank) ∈ dot_S256x4096_S256x4096_S256x256_1_1_0_0_n_n.lhsNonContracting by decide)]
  rfl
theorem lhs_nt_1 (i : S256x256.Idx) (q : dot_S256x4096_S256x4096_S256x256_1_1_0_0_n_n.contr.Idx) :
    (dot_S256x4096_S256x4096_S256x256_1_1_0_0_n_n.lhsIdx i q 1).val = (q ⟨0, by decide⟩).val :=
  dot_S256x4096_S256x4096_S256x256_1_1_0_0_n_n.lhsIdx_val_of_single rfl i q
/-- Where it reads its right operand: axis 0 is the output's COLUMN (the right operand is not transposed: its rows are
    the output's columns), axis 1 the contracted column. -/
theorem rhs_nt_0 (i : S256x256.Idx) (q : dot_S256x4096_S256x4096_S256x256_1_1_0_0_n_n.contr.Idx) :
    (dot_S256x4096_S256x4096_S256x256_1_1_0_0_n_n.rhsIdx i q 0).val = (i 1).val := by
  unfold DotDims.rhsIdx
  rw [dif_neg (show ¬(0 : Fin S256x4096.rank) ∈ dot_S256x4096_S256x4096_S256x256_1_1_0_0_n_n.rhsBatch by decide), dif_pos (show (0 : Fin S256x4096.rank) ∈ dot_S256x4096_S256x4096_S256x256_1_1_0_0_n_n.rhsNonContracting by decide)]
  rfl
theorem rhs_nt_1 (i : S256x256.Idx) (q : dot_S256x4096_S256x4096_S256x256_1_1_0_0_n_n.contr.Idx) :
    (dot_S256x4096_S256x4096_S256x256_1_1_0_0_n_n.rhsIdx i q 1).val = (q ⟨0, by decide⟩).val :=
  dot_S256x4096_S256x4096_S256x256_1_1_0_0_n_n.rhsIdx_val_of_single rfl i q

/-- One product into the zero accumulator, at entry (p, q): the rows p of x and q of y contracted. -/
theorem nt_apply (x y : FVec Ideal S256x4096 .f32) (p q : Fin 256) :
    matmul dot_S256x4096_S256x4096_S256x256_1_1_0_0_n_n (some .fp32) x y (constant (F := Ideal) S256x256 .f32 0x00000000#32) (ix2 p q)
      = ∑ k : Fin 4096, x (ix2 p k) * y (ix2 q k) := by
  simp only [matmul]
  rw [Ideal.matmul_constant_zero_apply, ← Equiv.sum_comp (contrEquiv1 dot_S256x4096_S256x4096_S256x256_1_1_0_0_n_n 4096 rfl rfl).symm]
  refine Finset.sum_congr rfl fun k _ => ?_
  have hk := contrEquiv1_symm_val dot_S256x4096_S256x4096_S256x256_1_1_0_0_n_n 4096 rfl rfl k
  have el : dot_S256x4096_S256x4096_S256x256_1_1_0_0_n_n.lhsIdx (ix2 p q) ((contrEquiv1 dot_S256x4096_S256x4096_S256x256_1_1_0_0_n_n 4096 rfl rfl).symm k) = ix2 p k := funext fun a => Fin.ext (by
    match a with
    | ⟨0, _⟩ => exact lhs_nt_0 _ _
    | ⟨1, _⟩ => exact (lhs_nt_1 _ _).trans hk)
  have er : dot_S256x4096_S256x4096_S256x256_1_1_0_0_n_n.rhsIdx (ix2 p q) ((contrEquiv1 dot_S256x4096_S256x4096_S256x256_1_1_0_0_n_n 4096 rfl rfl).symm k) = ix2 q k := funext fun a => Fin.ext (by
    match a with
    | ⟨0, _⟩ => exact rhs_nt_0 _ _
    | ⟨1, _⟩ => exact (rhs_nt_1 _ _).trans hk)
  rw [el, er]

/-- The stored value at entry (p, q) of the block. -/
theorem pay_apply (x0 x1 x2 x3 : Vec Ideal S256x4096 .f32) (p q : Fin 256) :
    k0_pay1 (F := Ideal) x0 x1 x2 x3 (ix2 p q)
      = (∑ k : Fin 4096, x0 (ix2 p k) * x1 (ix2 q k)) - ∑ k : Fin 4096, x2 (ix2 p k) * x3 (ix2 q k) := by
  unfold k0_pay1
  show subf _ _ (ix2 p q) = _
  rw [subf_apply, nt_apply, nt_apply]

end Cert.KernelIdeal.Hand

end
-- ==== Proof.GramSpec.lean ====
/-
  The table both programs gather from, as one function of the two argument matrices.

  For 4096 × 4096 matrices U and V over the extended reals,

      M (r, s)  =  Σ_k U (r, k) · U (s, k)  −  Σ_k V (r, k) · V (s, k),        k < 4096,

  the (r, s) entry of U·Uᵀ − V·Vᵀ: each product contracts the two rows r and s along the column axis. Stated with the
  index written as a pair of coordinates, so that either program's way of reaching a row (a row block and an offset inside
  it, or a transposed copy) is identified with it by comparing coordinates.
-/
import Idealize.ShloMosaic.PureOps.Ideal
import Idealize.ShloMosaic.Lib.ValueIdx

noncomputable section

namespace Cert.GramDiff

open Idealize.ShloMosaic

/-- The matrices' shape. -/
abbrev SD : Shape := ⟨2, ![4096, 4096]⟩

/-- The index (r, s). -/
abbrev at2 (r s : Fin 4096) : SD.Idx := fun a => match a with
  | ⟨0, _⟩ => ⟨r.val, r.isLt⟩
  | ⟨1, _⟩ => ⟨s.val, s.isLt⟩

/-- An index's row and column as numbers below 4096. -/
abbrev rowOf (i : SD.Idx) : Fin 4096 := ⟨(i 0).val, (i 0).isLt⟩
abbrev colOf (i : SD.Idx) : Fin 4096 := ⟨(i 1).val, (i 1).isLt⟩

/-- U·Uᵀ − V·Vᵀ, entry by entry. -/
def gramDiff (U V : SD.Idx → EReal) : SD.Idx → EReal := fun i =>
  (∑ k : Fin 4096, U (at2 (rowOf i) k) * U (at2 (colOf i) k)) - ∑ k : Fin 4096, V (at2 (rowOf i) k) * V (at2 (colOf i) k)

/-- Two indices with equal coordinates are one index. -/
theorem idx_ext {i j : SD.Idx} (h0 : (i 0).val = (j 0).val) (h1 : (i 1).val = (j 1).val) : i = j :=
  funext fun a => Fin.ext (by
    match a with
    | ⟨0, _⟩ => exact h0
    | ⟨1, _⟩ => exact h1)

/-- An entry of the table from any two row readers that agree with rows r and s coordinate by coordinate: what each
    program's own indexing is compared against. -/
theorem gramDiff_of_rows (U V : SD.Idx → EReal) (i : SD.Idx) (a b a' b' : Fin 4096 → SD.Idx)
    (ha0 : ∀ k, (a k 0).val = (i 0).val) (ha1 : ∀ k, (a k 1).val = k.val)
    (hb0 : ∀ k, (b k 0).val = (i 1).val) (hb1 : ∀ k, (b k 1).val = k.val)
    (ha0' : ∀ k, (a' k 0).val = (i 0).val) (ha1' : ∀ k, (a' k 1).val = k.val)
    (hb0' : ∀ k, (b' k 0).val = (i 1).val) (hb1' : ∀ k, (b' k 1).val = k.val) :
    (∑ k : Fin 4096, U (a k) * U (b k)) - (∑ k : Fin 4096, V (a' k) * V (b' k)) = gramDiff U V i := by
  unfold gramDiff
  have ea : ∀ k, a k = at2 (rowOf i) k := fun k => idx_ext (ha0 k) (ha1 k)
  have eb : ∀ k, b k = at2 (colOf i) k := fun k => idx_ext (hb0 k) (hb1 k)
  have ea' : ∀ k, a' k = at2 (rowOf i) k := fun k => idx_ext (ha0' k) (ha1' k)
  have eb' : ∀ k, b' k = at2 (colOf i) k := fun k => idx_ext (hb0' k) (hb1' k)
  simp only [ea, eb, ea', eb']

end Cert.GramDiff

end
-- ==== Proof.KernelIdeal.Value.lean ====
/-
  From the 256 blocks to the table: what the region leaves in the result array.

  Point t of the 16 × 16 grid is the block pair (i, j). Window 0 stages rows 256·i … 256·i + 255 of U and window 1 rows
  256·j … of U (all 4096 columns of each), windows 2 and 3 the same rows of V, and window 4 is block (i, j) of the
  result. Entry (p, q) of the stored block is  Σ_k U (256·i + p, k) · U (256·j + q, k)  −  the same of V, which is the
  table's entry (256·i + p, 256·j + q): exactly the array index the write-back puts it at. The 256 blocks tile the
  4096 × 4096 array (index (r, s) lies in the block of point (r / 256, s / 256)), so after the region the whole result
  array is the table.
-/
import proofs.«429307_j4638564680527_3_alg».proof.Proof.KernelIdeal.Shared
import proofs.«429307_j4638564680527_3_alg».proof.Proof.KernelIdeal.Payload
import proofs.«429307_j4638564680527_3_alg».proof.Proof.GramSpec
import Idealize.ShloMosaic.Lib.Pipeline.Value

set_option maxRecDepth 16384

noncomputable section

namespace Cert.KernelIdeal.Hand

open Cert.KernelIdeal Cert.KernelIdeal.Gen Cert.GramDiff
open Idealize.ShloMosaic Idealize.ShloMosaic.TcCoe Idealize.ShloMosaic.ValueIdx
open Idealize.ShloMosaic.Pipeline (Dat)

variable (m : (ℓ : Loc nD τ sig) → Buf (Elt Ideal) ℓ)

theorem hz : (![0, 0] : Fin 2 → Nat) = fun _ => 0 := funext fun a => by fin_cases a <;> rfl

/-- One stored block against the table, over plain variables: four blocks read off U and V by embeddings whose row
    coordinates are 256·bi (the left operands) and 256·bj (the right operands) plus the offset inside the block, and an
    output embedding at (256·bi, 256·bj) plus the offsets. -/
theorem block_entry (U V : SD.Idx → EReal) (bi bj : Nat) (x0 x1 x2 x3 : Vec Ideal S256x4096 .f32)
    (e0 e1 e2 e3 : S256x4096.Idx → SD.Idx) (e4 : S256x256.Idx → SD.Idx)
    (h0 : ∀ y, x0 y = U (e0 y)) (h1 : ∀ y, x1 y = U (e1 y)) (h2 : ∀ y, x2 y = V (e2 y)) (h3 : ∀ y, x3 y = V (e3 y))
    (c00 : ∀ y, (e0 y 0).val = bi * 256 + (y 0).val) (c01 : ∀ y, (e0 y 1).val = (y 1).val)
    (c10 : ∀ y, (e1 y 0).val = bj * 256 + (y 0).val) (c11 : ∀ y, (e1 y 1).val = (y 1).val)
    (c20 : ∀ y, (e2 y 0).val = bi * 256 + (y 0).val) (c21 : ∀ y, (e2 y 1).val = (y 1).val)
    (c30 : ∀ y, (e3 y 0).val = bj * 256 + (y 0).val) (c31 : ∀ y, (e3 y 1).val = (y 1).val)
    (c40 : ∀ y, (e4 y 0).val = bi * 256 + (y 0).val) (c41 : ∀ y, (e4 y 1).val = bj * 256 + (y 1).val)
    (y : S256x256.Idx) :
    k0_pay1 (F := Ideal) x0 x1 x2 x3 y = gramDiff U V (e4 y) := by
  obtain ⟨p, q, rfl⟩ : ∃ (p q : Fin 256), y = ix2 p q := ⟨y 0, y 1, eq_ix2 y⟩
  rw [pay_apply]
  simp only [h0, h1, h2, h3]
  exact gramDiff_of_rows U V (e4 (ix2 p q)) (fun k => e0 (ix2 p k)) (fun k => e1 (ix2 q k)) (fun k => e2 (ix2 p k)) (fun k => e3 (ix2 q k))
    (fun k => (c00 (ix2 p k)).trans (c40 (ix2 p q)).symm) (fun k => c01 (ix2 p k))
    (fun k => (c10 (ix2 q k)).trans (c41 (ix2 p q)).symm) (fun k => c11 (ix2 q k))
    (fun k => (c20 (ix2 p k)).trans (c40 (ix2 p q)).symm) (fun k => c21 (ix2 p k))
    (fun k => (c30 (ix2 q k)).trans (c41 (ix2 p q)).symm) (fun k => c31 (ix2 q k))

/-- The printed index maps, decided over the grid: the left operands' row block is the output's row block, the right
    operands' row block is the output's COLUMN block, every input block spans all the columns, and the output's block
    indices stay below 16. -/
theorem idx_facts : ∀ t : Fin cfg0.N,
    win0_0.index t (0 : Fin 2) = win0_4.index t (0 : Fin 2) ∧ win0_0.index t (1 : Fin 2) = 0
    ∧ win0_1.index t (0 : Fin 2) = win0_4.index t (1 : Fin 2) ∧ win0_1.index t (1 : Fin 2) = 0
    ∧ win0_2.index t (0 : Fin 2) = win0_4.index t (0 : Fin 2) ∧ win0_2.index t (1 : Fin 2) = 0
    ∧ win0_3.index t (0 : Fin 2) = win0_4.index t (1 : Fin 2) ∧ win0_3.index t (1 : Fin 2) = 0
    ∧ win0_4.index t (0 : Fin 2) ≤ 15 ∧ win0_4.index t (1 : Fin 2) ≤ 15 :=
  (by decide +kernel : ∀ t : Fin grid0.N, _)

/-- Every block pair is some point's. -/
theorem idx_onto : ∀ (q0 q1 : Fin 16), ∃ t : Fin cfg0.N, win0_4.index t = ![q0.val, q1.val] :=
  (by decide +kernel : ∀ (q0 q1 : Fin 16), ∃ t : Fin grid0.N, win0_4.index t = ![q0.val, q1.val])

/-- WHAT POINT `t` WRITES BACK is block `t` of the table of the launched U and V. -/
theorem flushed_eq (c : Dev nD) (t : Fin cfg0.N) :
    (dat m c).flushed 4 t = ((cfg0.win 4).blk t).view.read (Elt Ideal) (gramDiff (V m c main_arg0) (V m c main_arg1)) := by
  show (cfg0.win 4).cut (grid0.coords t) ((dat m c).after 4 t) = _
  rw [after_4]
  unfold outBlock
  rw [View.canon_unit_zero hz]
  simp only [View.ld_unit_zero (S := S256x4096) hz]
  obtain ⟨f0, f0', f1, f1', f2, f2', f3, f3', -, -⟩ := idx_facts t
  funext j
  refine block_entry (V m c main_arg0) (V m c main_arg1) (win0_4.index t (0 : Fin 2)) (win0_4.index t (1 : Fin 2))
    (iblk m c 0 t) (iblk m c 1 t) (iblk m c 2 t) (iblk m c 3 t)
    ((cfg0.win 0).blk t).view.emb ((cfg0.win 1).blk t).view.emb ((cfg0.win 2).blk t).view.emb ((cfg0.win 3).blk t).view.emb
    ((cfg0.win 4).blk t).view.emb (fun y => rfl) (fun y => rfl) (fun y => rfl) (fun y => rfl)
    (fun y => ?_) (fun y => ?_) (fun y => ?_) (fun y => ?_) (fun y => ?_) (fun y => ?_) (fun y => ?_) (fun y => ?_) (fun y => ?_) (fun y => ?_) j
  · show win0_0.index t (0 : Fin 2) * 256 + 1 * (y 0).val = _; omega
  · show win0_0.index t (1 : Fin 2) * 4096 + 1 * (y 1).val = _; omega
  · show win0_1.index t (0 : Fin 2) * 256 + 1 * (y 0).val = _; omega
  · show win0_1.index t (1 : Fin 2) * 4096 + 1 * (y 1).val = _; omega
  · show win0_2.index t (0 : Fin 2) * 256 + 1 * (y 0).val = _; omega
  · show win0_2.index t (1 : Fin 2) * 4096 + 1 * (y 1).val = _; omega
  · show win0_3.index t (0 : Fin 2) * 256 + 1 * (y 0).val = _; omega
  · show win0_3.index t (1 : Fin 2) * 4096 + 1 * (y 1).val = _; omega
  · show win0_4.index t (0 : Fin 2) * 256 + 1 * (y 0).val = _; omega
  · show win0_4.index t (1 : Fin 2) * 256 + 1 * (y 1).val = _; omega

/-- An index of the array is in point `t`'s block iff each coordinate is in the block's range on its axis. -/
theorem mem_blk (t : Fin cfg0.N) (i : S4096x4096.Idx) :
    i ∈ ((cfg0.win 4).blk t).view.set ↔ ∀ a : Fin 2, win0_4.index t a * S256x256.size a ≤ (i a).val ∧ (i a).val < win0_4.index t a * S256x256.size a + S256x256.size a := by
  show i ∈ ((View.whole main_v0).slice (win0_4.rect t)).set ↔ _
  rw [View.set_slice_whole, Rect.mem_set_unit]
  exact Iff.rfl

/-- The blocks tile the array: index (r, s) lies in the block of point (r / 256, s / 256). -/
theorem covered (i : S4096x4096.Idx) :
    ∃ t : Fin cfg0.N, (cfg0.win 4).flush t = true ∧ i ∈ ((cfg0.win 4).blk t).view.set := by
  have hi0 : (i 0).val < 4096 := (i 0).isLt
  have hi1 : (i 1).val < 4096 := (i 1).isLt
  obtain ⟨t, ht⟩ := idx_onto ⟨(i 0).val / 256, by omega⟩ ⟨(i 1).val / 256, by omega⟩
  have q0 : win0_4.index t (0 : Fin 2) = (i 0).val / 256 := congrFun ht 0
  have q1 : win0_4.index t (1 : Fin 2) = (i 1).val / 256 := congrFun ht 1
  refine ⟨t, flush0_4 t, ?_⟩
  rw [mem_blk]
  intro a
  match a with
  | ⟨0, _⟩ => show win0_4.index t (0 : Fin 2) * 256 ≤ (i 0).val ∧ (i 0).val < win0_4.index t (0 : Fin 2) * 256 + 256; omega
  | ⟨1, _⟩ => show win0_4.index t (1 : Fin 2) * 256 ≤ (i 1).val ∧ (i 1).val < win0_4.index t (1 : Fin 2) * 256 + 256; omega

/-- THE RESULT ARRAY after the region is the table of the launched U and V. -/
theorem Mout_eq (c : Dev nD) :
    Mout m c = gramDiff (m ((c : Thread nD τ).loc main_arg0)) (m ((c : Thread nD τ).loc main_arg1)) :=
  (dat m c).arrAt_eq_of_cover 4 _ (fun t _ => flushed_eq m c t) (covered)

end Cert.KernelIdeal.Hand

end
-- ==== Proof.RefValue.lean ====
/-
  The reference's table is the specification.

  The reference transposes U, multiplies U by the transposed copy contracting U's columns with the copy's rows, does the
  same for V and subtracts. Entry (r, s) of the first product is Σ_k U (r, k) · Uᵀ (k, s), and Uᵀ (k, s) is U (s, k): rows
  r and s of U contracted, which is the specification's first sum; the second likewise.
-/
import proofs.«429307_j4638564680527_3_alg».proof.Proof.Gen.ReferenceIdeal.Read
import proofs.«429307_j4638564680527_3_alg».proof.Proof.GramSpec

noncomputable section

namespace Cert.ReferenceIdeal.RefValue

open Cert.ReferenceIdeal Cert.ReferenceIdeal.Gen Cert.ReferenceIdeal.Read
open Idealize.ShloMosaic Cert.GramDiff

/-- The reference's difference of the two products, index by index, is `gramDiff`. -/
theorem table_eq (U V : (⟨S4096x4096, .f32⟩ : BufTy).Contents (Elt Ideal)) :
    val_main_v4 (F := Ideal) U V = gramDiff U V := by
  funext i
  rw [val_main_v4_apply, val_main_v1_apply, val_main_v3_apply]
  simp only [val_main_v0_apply, val_main_v2_apply]
  exact gramDiff_of_rows U V i (fun k => lidx_main_v1 i k) (fun k => idx_main_v0 (ridx_main_v1 i k))
    (fun k => lidx_main_v3 i k) (fun k => idx_main_v2 (ridx_main_v3 i k))
    (fun k => rfl) (fun k => rfl) (fun k => rfl) (fun k => rfl) (fun k => rfl) (fun k => rfl) (fun k => rfl) (fun k => rfl)

end Cert.ReferenceIdeal.RefValue

end
-- ==== Proof.lean ====
/-
  The certificate: a tiled Pallas kernel for  M = U·Uᵀ − V·Vᵀ  followed by the gather M[x1, x2], against the jnp
  reference that builds M with two host matrix products of transposed copies and gathers it the same way.

  Five claims. The two kernel programs (as printed, read at the word level, and idealized, read at the extended reals)
  have one text in two namespaces; each is run once, at any float instance (Proof/Kernel/Run.lean and
  Proof/KernelIdeal/Run.lean): the region on its 16 × 16 grid, then the eighteen host operations. Both input matrices
  are handed to the kernel through TWO windows each (row block i and row block j), so the region holds each matrix at two
  half shares rather than outright (Proof/…/Shared.lean). The reference is host operations only and its run is the
  generated one. Nothing was rewritten by the idealization, so that claim is trivial.

  The value claim. After the region the result array is the table  Σ_k U(r,k)·U(s,k) − Σ_k V(r,k)·V(s,k)  (block (i, j)
  written by point (i, j), the blocks tiling the array: Proof/KernelIdeal/Value.lean over the body's stored value,
  Proof/KernelIdeal/Payload.lean); the reference's transposed products are the same sums (Proof/RefValue.lean). No law
  beyond the reading of each product as a sum is used: both programs subtract the V-sum from the U-sum in that order, so the
  finiteness of the inputs is never opened. Both programs then apply the SAME eighteen host operations to the table and the
  two index vectors (wrap negatives by 4096, pair rows with columns, gather), carried here as one function that is
  never opened.
-/
import proofs.«429307_j4638564680527_3_alg».proof.Defs
import proofs.«429307_j4638564680527_3_alg».proof.Proof.Gen.Pre_finite_inputs
import proofs.«429307_j4638564680527_3_alg».proof.Proof.Kernel.Run
import proofs.«429307_j4638564680527_3_alg».proof.Proof.KernelIdeal.Run
import proofs.«429307_j4638564680527_3_alg».proof.Proof.KernelIdeal.Value
import proofs.«429307_j4638564680527_3_alg».proof.Proof.RefValue
import Idealize.ShloMosaic.Adequacy
import Idealize.ShloMosaic.Init

noncomputable section

namespace Cert.Proof

open Idealize.ShloMosaic Idealize.ShloMosaic.TcCoe Idealize.SL.Sem Cert.GramDiff

/-! ## The frames -/

theorem frame_kernel : Cert.frame_Kernel := fun m ρ _ => Cert.Kernel.Hand.frame m ρ
theorem frame_kernelIdeal : Cert.frame_KernelIdeal := fun m ρ _ => Cert.KernelIdeal.Hand.frame m ρ
/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-! ## The value claim -/

/-- The reference's result is the shared host function of the table: its own table is the specification's, and the
    operations after it are, one for one, the kernel program's. -/
theorem reference_result (U V : (⟨Cert.ReferenceIdeal.S4096x4096, .f32⟩ : BufTy).Contents (Elt Ideal))
    (x1 x2 : (⟨Cert.ReferenceIdeal.S1048576, .i32⟩ : BufTy).Contents (Elt Ideal)) :
    Cert.ReferenceIdeal.Read.val_main_v18 (F := Ideal) U V x1 x2
      = Cert.KernelIdeal.Hand.gatherTail (F := Ideal) (gramDiff U V) x1 x2 := by
  unfold Cert.ReferenceIdeal.Read.val_main_v18
  rw [Cert.ReferenceIdeal.RefValue.table_eq]
  rfl

/-- From memories agreeing on the arguments both idealized programs run and end with equal results: the shared host
    function of the table of U and V, at x1 and x2. -/
theorem algebraic : Cert.algebraic_KernelIdeal_ReferenceIdeal := by
  intro m ρ m' ρ' _ hagree
  refine ⟨fun c => Cert.KernelIdeal.Hand.gatherTail (F := Ideal)
      (gramDiff (m ((c.tc : Thread Cert.KernelIdeal.nD Cert.KernelIdeal.τ).loc Cert.KernelIdeal.main_arg0))
        (m ((c.tc : Thread Cert.KernelIdeal.nD Cert.KernelIdeal.τ).loc Cert.KernelIdeal.main_arg1)))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · refine (θ_run Cert.KernelIdeal.defs _ _).mono (fun _ h c => ⟨(h c).1.trans ?_, (h c).2⟩) (Cert.KernelIdeal.Hand.run_result m ρ)
    rw [Cert.KernelIdeal.Hand.Mout_eq]
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v18_eq, (hagree c).1, (hagree c).2.1, (hagree c).2.2.1, (hagree c).2.2.2]
    exact reference_result _ _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
